-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S1024x1024 : Shape := ⟨2, ![1024, 1024]⟩
abbrev S16x1024 : Shape := ⟨2, ![16, 1024]⟩
abbrev S1024x16 : Shape := ⟨2, ![1024, 16]⟩
abbrev S1x1024 : Shape := ⟨2, ![1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S1024x1024_S1024x1024_S1024x1024_1_1_0_0_n_n_wf : DotDims.WF S1024x1024 S1024x1024 S1024x1024 [1] [1] [0] [0] [] []
  dot_S1024x1024_S16x1024_S1024x16_1_1_0_0_n_n_wf : DotDims.WF S1024x1024 S16x1024 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Pieces.lean ====
/-
  The tiled body, case by case, as values: what a run of the body at one grid point leaves behind.
-/
import proofs.«134850_j13881334300847_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]
variable (c : Dev nD) (i : grid0.Coords)
  (arg3 : Memref sig .tc .vmem S1024x1024 .f32) (harg3 : arg3.IsWhole) (arg4 : Memref sig .tc .vmem S1024x1024 .f32) (harg4 : arg4.IsWhole)
  (arg5 : Memref sig .tc .vmem S16x1024 .f32) (harg5 : arg5.IsWhole) (arg6 : Memref sig .tc .vmem S1024x16 .f32) (harg6 : arg6.IsWhole)
  (arg7 : Memref sig .tc .vmem S1x1024 .f32) (harg7 : arg7.IsWhole) (arg8 : Memref sig .tc .vmem S1024x1024 .f32) (harg8 : arg8.IsWhole)
  (arg9 : Memref sig .tc .vmem S1024x1024 .f32) (harg9 : arg9.IsWhole) (arg10 : Memref sig .tc .vmem S1024x16 .f32) (harg10 : arg10.IsWhole)
  (x0 : Vec F S1024x1024 .f32) (x1 : Vec F S1024x1024 .f32) (x2 : Vec F S16x1024 .f32) (x3 : Vec F S1024x16 .f32) (x4 : Vec F S1x1024 .f32)
  (xs0 : Vec F S1024x1024 .f32) (xs1 : Vec F S1024x16 .f32)

theorem hz : (![0, 0] : Fin 2 → Nat) = fun _ => 0 := funext fun a => by fin_cases a <;> rfl

/-! What each control case of the body leaves in the two accumulators it carries from point to point and
    in the output block, as the body's own arithmetic (`k0_pay4`: accumulator + x·wᵀ; `k0_pay5`:
    accumulator + x·aᵀ; `k0_pay6`: the closing combination; `k0_pay1`, `k0_pay2`: the zero blocks) of
    the loaded blocks: every load and store goes through the whole buffer, so one covering store leaves its
    payload and a load after it reads that payload back. -/

/-- First feature block: the main accumulator is zeroed, then gets x·wᵀ added. -/
theorem accA (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz]
  simp only [View.readAt_eq_ld, harg3.read_unread, harg4.read_unread, harg5.read_unread, harg6.read_unread, harg7.read_unread, harg9.read_unread, harg10.read_unread, View.ld_unit_zero (S := S1024x1024) hz, View.ld_unit_zero (S := S16x1024) hz, View.ld_unit_zero (S := S1024x16) hz, View.ld_unit_zero (S := S1x1024) hz, View.readCov_unit_zero (S := S1024x1024) _ hz, View.readCov_unit_zero (S := S1024x16) _ hz]

/-- First feature block: the low-rank accumulator is zeroed, then gets x·aᵀ added. -/
theorem xaA (hc0 : cond0_0 i) (hc1 : ¬cond0_1 i) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz]
  simp only [View.readAt_eq_ld, harg3.read_unread, harg4.read_unread, harg5.read_unread, harg6.read_unread, harg7.read_unread, harg9.read_unread, harg10.read_unread, View.ld_unit_zero (S := S1024x1024) hz, View.ld_unit_zero (S := S16x1024) hz, View.ld_unit_zero (S := S1024x16) hz, View.ld_unit_zero (S := S1x1024) hz, View.readCov_unit_zero (S := S1024x1024) _ hz, View.readCov_unit_zero (S := S1024x16) _ hz]

/-- A middle feature block: the main accumulator gets x·wᵀ added. -/
theorem accB (hc0 : ¬cond0_0 i) (hc1 : ¬cond0_1 i) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S16x1024) hz, View.ld_unit_zero (S := S1024x16) hz, View.ld_unit_zero (S := S1x1024) hz, View.readCov_unit_zero (S := S1024x1024) _ hz, View.readCov_unit_zero (S := S1024x16) _ hz]

/-- A middle feature block: the low-rank accumulator gets x·aᵀ added. -/
theorem xaB (hc0 : ¬cond0_0 i) (hc1 : ¬cond0_1 i) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S16x1024) hz, View.ld_unit_zero (S := S1024x16) hz, View.ld_unit_zero (S := S1x1024) hz, View.readCov_unit_zero (S := S1024x1024) _ hz, View.readCov_unit_zero (S := S1024x16) _ hz]

/-- The last feature block: the accumulators are updated as in the middle ones, -/
theorem accC (hc0 : ¬cond0_0 i) (hc1 : cond0_1 i) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S16x1024) hz, View.ld_unit_zero (S := S1024x16) hz, View.ld_unit_zero (S := S1x1024) hz, View.readCov_unit_zero (S := S1024x1024) _ hz, View.readCov_unit_zero (S := S1024x16) _ hz]

theorem xaC (hc0 : ¬cond0_0 i) (hc1 : cond0_1 i) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S16x1024) hz, View.ld_unit_zero (S := S1024x16) hz, View.ld_unit_zero (S := S1x1024) hz, View.readCov_unit_zero (S := S1024x1024) _ hz, View.readCov_unit_zero (S := S1024x16) _ hz]

/-- and the output block is the closing combination of the UPDATED accumulators, the low-rank factor's block
    and the bias block. -/
theorem outC (hc0 : ¬cond0_0 i) (hc1 : cond0_1 i) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S16x1024) hz, View.ld_unit_zero (S := S1024x16) hz, View.ld_unit_zero (S := S1x1024) hz, View.readCov_unit_zero (S := S1024x1024) _ hz, View.readCov_unit_zero (S := S1024x16) _ hz]

end Cert.KernelIdeal.Pieces

end
-- ==== Proof.Spec.lean ====
/-
  The mathematics both programs compute, stated with no program in sight.

  A LoRA linear layer: for an activation `x` of shape [4, 4096, 4096] (batch, sequence, features), a weight
  `W` [4096, 4096], a bias [4096], and the low-rank pair `A` [16, 4096], `B` [4096, 16],

      y[b, s, o] = (∑_d x[b, s, d] · W[o, d] + bias[o]) + (∑_q (∑_d x[b, s, d] · A[q, d]) · B[o, q]) · 2 .

  The tiled program works on the activation flattened to rows, [16384, 4096], cuts the feature axis into
  four blocks of 1024, and adds the bias last; its whole-array function is `GK` below, and `pre` is the
  running sum over the first `k` feature blocks that its accumulators hold between grid points.
-/
import Idealize.ShloMosaic.PureOps.Ideal
import Idealize.ShloMosaic.Lib.ValueIdx

noncomputable section

namespace Cert.Lora

open Idealize.ShloMosaic Idealize.ShloMosaic.ValueIdx

abbrev SX3 : Shape := ⟨3, ![4, 4096, 4096]⟩
abbrev SX2 : Shape := ⟨2, ![16384, 4096]⟩
abbrev SW : Shape := ⟨2, ![4096, 4096]⟩
abbrev SB1 : Shape := ⟨1, ![4096]⟩
abbrev SB2 : Shape := ⟨2, ![1, 4096]⟩
abbrev SA : Shape := ⟨2, ![16, 4096]⟩
abbrev SLB : Shape := ⟨2, ![4096, 16]⟩

/-- The scaling alpha / r = 2, as both programs spell it (the same f32 word). -/
abbrev two : EReal := Ideal.ofBits .f32 0x40000000#32

/-! ## Where grid point `t` of the 16 × 4 × 4 grid (row block, column block, feature block; the last
    fastest) sits in the arrays -/

/-- Row `p` of point `t`'s row block. -/
def rowOf (t : ℕ) (p : Fin 1024) : Fin 16384 := ⟨1024 * (t / 16 % 16) + p.val, by have := p.isLt; omega⟩
/-- Column `q` of point `t`'s column block. -/
def colOf (t : ℕ) (q : Fin 1024) : Fin 4096 := ⟨1024 * (t / 4 % 4) + q.val, by have := q.isLt; omega⟩
/-- Feature `e` of feature block `k`. -/
def featOf (k : ℕ) (e : Fin 1024) : Fin 4096 := ⟨1024 * (k % 4) + e.val, by have := e.isLt; omega⟩

/-! ## A sum over the 4096 features, four blocks of 1024 at a time -/

/-- The part of `∑ d, g d` that lies in feature block `k`. -/
def blk (g : Fin 4096 → EReal) (k : ℕ) : EReal := ∑ e : Fin 1024, g (featOf k e)

/-- The part that lies in the first `k` feature blocks. -/
def pre (g : Fin 4096 → EReal) (k : ℕ) : EReal := ∑ a : Fin 4, if a.val < k then blk g a.val else 0

/-! ## The tiled program's whole-array function, over rows -/

def baseK (X : SX2.Idx → EReal) (W : SW.Idx → EReal) (r : Fin 16384) (o : Fin 4096) : EReal :=
  ∑ d : Fin 4096, X (ix2 r d) * W (ix2 o d)

def xaK (X : SX2.Idx → EReal) (A : SA.Idx → EReal) (r : Fin 16384) (q : Fin 16) : EReal :=
  ∑ d : Fin 4096, X (ix2 r d) * A (ix2 q d)

def loraK (X : SX2.Idx → EReal) (A : SA.Idx → EReal) (B : SLB.Idx → EReal) (r : Fin 16384) (o : Fin 4096) : EReal :=
  ∑ q : Fin 16, xaK X A r q * B (ix2 o q)

/-- What the tiled program leaves at (row, o): base plus scaled low-rank term, the bias added last. -/
def GK (X : SX2.Idx → EReal) (W : SW.Idx → EReal) (b2 : SB2.Idx → EReal) (A : SA.Idx → EReal) (B : SLB.Idx → EReal) :
    SX2.Idx → EReal :=
  fun j => (baseK X W (j 0) (j 1) + loraK X A B (j 0) (j 1) * two) + b2 (ix2 (0 : Fin 1) (j 1))

/-! ## The layer itself, over (batch, sequence, output feature) -/

def base3 (x : SX3.Idx → EReal) (W : SW.Idx → EReal) (b : Fin 4) (s : Fin 4096) (o : Fin 4096) : EReal :=
  ∑ d : Fin 4096, x (ix3 b s d) * W (ix2 o d)

def xa3 (x : SX3.Idx → EReal) (A : SA.Idx → EReal) (b : Fin 4) (s : Fin 4096) (q : Fin 16) : EReal :=
  ∑ d : Fin 4096, x (ix3 b s d) * A (ix2 q d)

def lora3 (x : SX3.Idx → EReal) (A : SA.Idx → EReal) (B : SLB.Idx → EReal) (b : Fin 4) (s : Fin 4096) (o : Fin 4096) : EReal :=
  ∑ q : Fin 16, xa3 x A b s q * B (ix2 o q)

/-- The layer: (x·Wᵀ + bias) + ((x·Aᵀ)·Bᵀ) · 2. -/
def G (x : SX3.Idx → EReal) (W : SW.Idx → EReal) (bias : SB1.Idx → EReal) (A : SA.Idx → EReal) (B : SLB.Idx → EReal) :
    SX3.Idx → EReal :=
  fun i => (base3 x W (i 0) (i 1) (i 2) + bias (ix1 (i 2))) + lora3 x A B (i 0) (i 1) (i 2) * two

/-- The flattened row of (batch `b`, position `s`). -/
def flatRow (b : Fin 4) (s : Fin 4096) : Fin 16384 := ⟨4096 * b.val + s.val, by have := b.isLt; have := s.isLt; omega⟩

end Cert.Lora

end
-- ==== Proof.Payload.lean ====
/-
  The tiled body's arithmetic read at one element, over the extended reals: a block product x·yᵀ (both
  operands contracted along their second axis, into a zero accumulator) is the plain sum of products over
  the shared axis; a change of float format is the identity there.
-/
import proofs.«134850_j13881334300847_1_alg».proof.Proof.Gen.KernelIdeal.Skeleton
import proofs.«134850_j13881334300847_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.Lora
open Idealize.ShloMosaic Idealize.ShloMosaic.ValueIdx

/-! ## Which operand element each product of the three block products reads -/

theorem mw_l0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem mw_l1 (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem mw_r0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem mw_r1 (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

theorem ma_l0 (i : S1024x16.Idx) (q : dot_S1024x1024_S16x1024_S1024x16_1_1_0_0_n_n.contr.Idx) : (dot_S1024x1024_S16x1024_S1024x16_1_1_0_0_n_n.lhsIdx i q 0).val = (i 0).val := by
  unfold DotDims.lhsIdx
  rw [dif_neg (show ¬(0 : Fin S1024x1024.rank) ∈ dot_S1024x1024_S16x1024_S1024x16_1_1_0_0_n_n.lhsBatch by decide), dif_pos (show (0 : Fin S1024x1024.rank) ∈ dot_S1024x1024_S16x1024_S1024x16_1_1_0_0_n_n.lhsNonContracting by decide)]
  rfl
theorem ma_l1 (i : S1024x16.Idx) (q : dot_S1024x1024_S16x1024_S1024x16_1_1_0_0_n_n.contr.Idx) : (dot_S1024x1024_S16x1024_S1024x16_1_1_0_0_n_n.lhsIdx i q 1).val = (q ⟨0, by decide⟩).val :=
  dot_S1024x1024_S16x1024_S1024x16_1_1_0_0_n_n.lhsIdx_val_of_single rfl i q
theorem ma_r0 (i : S1024x16.Idx) (q : dot_S1024x1024_S16x1024_S1024x16_1_1_0_0_n_n.contr.Idx) : (dot_S1024x1024_S16x1024_S1024x16_1_1_0_0_n_n.rhsIdx i q 0).val = (i 1).val := by
  unfold DotDims.rhsIdx
  rw [dif_neg (show ¬(0 : Fin S16x1024.rank) ∈ dot_S1024x1024_S16x1024_S1024x16_1_1_0_0_n_n.rhsBatch by decide), dif_pos (show (0 : Fin S16x1024.rank) ∈ dot_S1024x1024_S16x1024_S1024x16_1_1_0_0_n_n.rhsNonContracting by decide)]
  rfl
theorem ma_r1 (i : S1024x16.Idx) (q : dot_S1024x1024_S16x1024_S1024x16_1_1_0_0_n_n.contr.Idx) : (dot_S1024x1024_S16x1024_S1024x16_1_1_0_0_n_n.rhsIdx i q 1).val = (q ⟨0, by decide⟩).val :=
  dot_S1024x1024_S16x1024_S1024x16_1_1_0_0_n_n.rhsIdx_val_of_single rfl i q

theorem mb_l0 (i : S1024x1024.Idx) (q : dot_S1024x16_S1024x16_S1024x1024_1_1_0_0_n_n.contr.Idx) : (dot_S1024x16_S1024x16_S1024x1024_1_1_0_0_n_n.lhsIdx i q 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem mb_l1 (i : S1024x1024.Idx) (q : dot_S1024x16_S1024x16_S1024x1024_1_1_0_0_n_n.contr.Idx) : (dot_S1024x16_S1024x16_S1024x1024_1_1_0_0_n_n.lhsIdx i q 1).val = (q ⟨0, by decide⟩).val :=
  dot_S1024x16_S1024x16_S1024x1024_1_1_0_0_n_n.lhsIdx_val_of_single rfl i q
theorem mb_r0 (i : S1024x1024.Idx) (q : dot_S1024x16_S1024x16_S1024x1024_1_1_0_0_n_n.contr.Idx) : (dot_S1024x16_S1024x16_S1024x1024_1_1_0_0_n_n.rhsIdx i q 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem mb_r1 (i : S1024x1024.Idx) (q : dot_S1024x16_S1024x16_S1024x1024_1_1_0_0_n_n.contr.Idx) : (dot_S1024x16_S1024x16_S1024x1024_1_1_0_0_n_n.rhsIdx i q 1).val = (q ⟨0, by decide⟩).val :=
  dot_S1024x16_S1024x16_S1024x1024_1_1_0_0_n_n.rhsIdx_val_of_single rfl i q

/-! ## The three block products at an element -/

/-- x·wᵀ of a [1024, 1024] block of x and a [1024, 1024] block of W: element (p, q) is ∑ₑ x[p, e] · w[q, e]. -/
theorem mulW_apply {φ₁ φ₂ : FTy} (l : FVec Ideal S1024x1024 φ₁) (r : FVec Ideal S1024x1024 φ₂) (p : Fin 1024) (q : Fin 1024) :
    matmul dot_S1024x1024_S1024x1024_S1024x1024_1_1_0_0_n_n none l r (constant S1024x1024 .f32 0x00000000#32) (ix2 p q)
      = ∑ e : Fin 1024, l (ix2 p e) * r (ix2 q e) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact mw_l0 _ _
    | ⟨1, _⟩ => exact (mw_l1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact mw_r0 _ _
    | ⟨1, _⟩ => exact (mw_r1 _ _).trans hk)
  rw [el, er]

/-- x·aᵀ of a [1024, 1024] block of x and a [16, 1024] block of A: element (p, r) is ∑ₑ x[p, e] · a[r, e]. -/
theorem mulA_apply {φ₁ φ₂ : FTy} (l : FVec Ideal S1024x1024 φ₁) (r : FVec Ideal S16x1024 φ₂) (p : Fin 1024) (q : Fin 16) :
    matmul dot_S1024x1024_S16x1024_S1024x16_1_1_0_0_n_n none l r (constant S1024x16 .f32 0x00000000#32) (ix2 p q)
      = ∑ e : Fin 1024, l (ix2 p e) * r (ix2 q e) := by
  simp only [matmul]
  rw [Ideal.matmul_constant_zero_apply, ← Equiv.sum_comp (ValueIdx.contrEquiv1 dot_S1024x1024_S16x1024_S1024x16_1_1_0_0_n_n 1024 rfl rfl).symm]
  refine Finset.sum_congr rfl fun k _ => ?_
  have hk := ValueIdx.contrEquiv1_symm_val dot_S1024x1024_S16x1024_S1024x16_1_1_0_0_n_n 1024 rfl rfl k
  have el : dot_S1024x1024_S16x1024_S1024x16_1_1_0_0_n_n.lhsIdx (ix2 p q) ((ValueIdx.contrEquiv1 dot_S1024x1024_S16x1024_S1024x16_1_1_0_0_n_n 1024 rfl rfl).symm k) = ix2 p k := funext fun a => Fin.ext (by
    match a with
    | ⟨0, _⟩ => exact ma_l0 _ _
    | ⟨1, _⟩ => exact (ma_l1 _ _).trans hk)
  have er : dot_S1024x1024_S16x1024_S1024x16_1_1_0_0_n_n.rhsIdx (ix2 p q) ((ValueIdx.contrEquiv1 dot_S1024x1024_S16x1024_S1024x16_1_1_0_0_n_n 1024 rfl rfl).symm k) = ix2 q k := funext fun a => Fin.ext (by
    match a with
    | ⟨0, _⟩ => exact ma_r0 _ _
    | ⟨1, _⟩ => exact (ma_r1 _ _).trans hk)
  rw [el, er]

/-- xa·bᵀ of the [1024, 16] low-rank activations and a [1024, 16] block of B: element (p, q) is ∑ᵣ xa[p, r] · b[q, r]. -/
theorem mulB_apply {φ₁ φ₂ : FTy} (l : FVec Ideal S1024x16 φ₁) (r : FVec Ideal S1024x16 φ₂) (p : Fin 1024) (q : Fin 1024) :
    matmul dot_S1024x16_S1024x16_S1024x1024_1_1_0_0_n_n none l r (constant S1024x1024 .f32 0x00000000#32) (ix2 p q)
      = ∑ e : Fin 16, l (ix2 p e) * r (ix2 q e) := by
  simp only [matmul]
  rw [Ideal.matmul_constant_zero_apply, ← Equiv.sum_comp (ValueIdx.contrEquiv1 dot_S1024x16_S1024x16_S1024x1024_1_1_0_0_n_n 16 rfl rfl).symm]
  refine Finset.sum_congr rfl fun k _ => ?_
  have hk := ValueIdx.contrEquiv1_symm_val dot_S1024x16_S1024x16_S1024x1024_1_1_0_0_n_n 16 rfl rfl k
  have el : dot_S1024x16_S1024x16_S1024x1024_1_1_0_0_n_n.lhsIdx (ix2 p q) ((ValueIdx.contrEquiv1 dot_S1024x16_S1024x16_S1024x1024_1_1_0_0_n_n 16 rfl rfl).symm k) = ix2 p k := funext fun a => Fin.ext (by
    match a with
    | ⟨0, _⟩ => exact mb_l0 _ _
    | ⟨1, _⟩ => exact (mb_l1 _ _).trans hk)
  have er : dot_S1024x16_S1024x16_S1024x1024_1_1_0_0_n_n.rhsIdx (ix2 p q) ((ValueIdx.contrEquiv1 dot_S1024x16_S1024x16_S1024x1024_1_1_0_0_n_n 16 rfl rfl).symm k) = ix2 q k := funext fun a => Fin.ext (by
    match a with
    | ⟨0, _⟩ => exact mb_r0 _ _
    | ⟨1, _⟩ => exact (mb_r1 _ _).trans hk)
  rw [el, er]

/-! ## The payloads at an element -/

/-- The zero blocks the first feature block stores. -/
theorem zero1_apply (j : S1024x1024.Idx) : k0_pay1 (F := Ideal) j = 0 := by
  unfold k0_pay1
  simp only [shapeCast_self]
  exact Ideal.ofBits_zero_f32
theorem zero2_apply (j : S1024x16.Idx) : k0_pay2 (F := Ideal) j = 0 := by
  unfold k0_pay2
  simp only [shapeCast_self]
  exact Ideal.ofBits_zero_f32

/-- The main accumulator's update: acc + x·wᵀ. -/
theorem pay4_apply (x0 x1 acc : Vec Ideal S1024x1024 .f32) (p q : Fin 1024) :
    k0_pay4 x0 x1 acc (ix2 p q) = acc (ix2 p q) + ∑ e : Fin 1024, x0 (ix2 p e) * x1 (ix2 q e) := by
  unfold k0_pay4 k0_pay3
  simp only [shapeCast_self]
  exact congrArg (acc (ix2 p q) + ·) (mulW_apply _ _ p q)

/-- The low-rank accumulator's update: acc + x·aᵀ. -/
theorem pay5_apply (x0 : Vec Ideal S1024x1024 .f32) (x2 : Vec Ideal S16x1024 .f32) (acc : Vec Ideal S1024x16 .f32)
    (p : Fin 1024) (r : Fin 16) :
    k0_pay5 x0 x2 acc (ix2 p r) = acc (ix2 p r) + ∑ e : Fin 1024, x0 (ix2 p e) * x2 (ix2 r e) := by
  unfold k0_pay5 k0_pay3
  simp only [shapeCast_self]
  exact congrArg (acc (ix2 p r) + ·) (mulA_apply _ _ p r)

/-- The closing combination: (acc + (xa·bᵀ) · 2) + bias, the bias row broadcast down the block. -/
theorem pay6_apply (x3 xa : Vec Ideal S1024x16 .f32) (acc : Vec Ideal S1024x1024 .f32) (x4 : Vec Ideal S1x1024 .f32)
    (p q : Fin 1024) :
    k0_pay6 x3 xa acc x4 (ix2 p q)
      = (acc (ix2 p q) + (∑ r : Fin 16, xa (ix2 p r) * x3 (ix2 q r)) * two) + x4 (ix2 (0 : Fin 1) q) := by
  unfold k0_pay6
  simp only [shapeCast_self]
  have hb : broadcastTo S1024x1024 x4 broadcasts_S1x1024_S1024x1024 (ix2 p q) = x4 (ix2 (0 : Fin 1) q) :=
    broadcastTo_apply x4 broadcasts_S1x1024_S1024x1024 (ix2 p q) (ix2 (0 : Fin 1) q) (fun a => by
      match a with
      | ⟨0, _⟩ => show (0 : Nat) = if (1 : Nat) = 1 then 0 else p.val; rw [if_pos rfl]
      | ⟨1, _⟩ => show q.val = if (1024 : Nat) = 1 then 0 else q.val; rw [if_neg (by decide)])
  exact congrArg₂ (· + ·)
    (congrArg (acc (ix2 p q) + ·) (congrArg (· * two) (mulB_apply (φ₁ := .bf16) (φ₂ := .bf16) _ _ p q))) hb

end Cert.KernelIdeal.Payload

end
-- ==== Proof.Blocks.lean ====
/-
  Where each window's block at a grid point sits in its array, and what the two arrays the host lines make
  before the tiled call (the activation flattened to rows, the bias as a one-row matrix) hold.
-/
import proofs.«134850_j13881334300847_1_alg».proof.Proof.Gen.KernelIdeal.Frame
import proofs.«134850_j13881334300847_1_alg».proof.Proof.Spec
import Idealize.ShloMosaic.Lib.Pipeline.Value
import Idealize.ShloMosaic.Lib.StableHlo.Run

noncomputable section

namespace Cert.KernelIdeal.Blocks

open Cert.KernelIdeal Cert.KernelIdeal.Gen Cert.Lora
open Idealize.ShloMosaic Idealize.ShloMosaic.TcCoe Idealize.ShloMosaic.ValueIdx Idealize.SL.Sem

variable (m : (ℓ : Loc nD τ sig) → Buf (Elt Ideal) ℓ)

/-- The arrays as the tiled call finds them, at their literal types. -/
abbrev X2 (c : Dev nD) : Vec Ideal S16384x4096 .f32 := V m c main_v0
abbrev Wm (c : Dev nD) : Vec Ideal S4096x4096 .f32 := V m c main_arg1
abbrev Am (c : Dev nD) : Vec Ideal S16x4096 .f32 := V m c main_arg3
abbrev Bm (c : Dev nD) : Vec Ideal S4096x16 .f32 := V m c main_arg4
abbrev b2 (c : Dev nD) : Vec Ideal S1x4096 .f32 := V m c main_v1

/-- The five input blocks at point `t`, at their literal types. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev ablk (c : Dev nD) (t : Fin cfg0.N) : Vec Ideal S16x1024 .f32 := iblk m c 2 t
abbrev lbblk (c : Dev nD) (t : Fin cfg0.N) : Vec Ideal S1024x16 .f32 := iblk m c 3 t
abbrev biasblk (c : Dev nD) (t : Fin cfg0.N) : Vec Ideal S1x1024 .f32 := iblk m c 4 t

/-! ## The printed index maps, decided once over the 256 grid points

Point `t` of the 16 × 4 × 4 grid (last axis fastest) has row block `t / 16 % 16`, column block `t / 4 % 4`,
feature block `t % 4`; each window's index map picks two of these (or the constant 0). -/

/-- The activation window moves with (row block, feature block). -/
theorem xidx : ∀ t : Fin cfg0.N, win0_0.index t (0 : Fin 2) = t.val / 16 % 16 ∧ win0_0.index t (1 : Fin 2) = t.val % 4 :=
  (by decide +kernel : ∀ t : Fin grid0.N, _)
/-- The weight window moves with (column block, feature block). -/
theorem widx : ∀ t : Fin cfg0.N, win0_1.index t (0 : Fin 2) = t.val / 4 % 4 ∧ win0_1.index t (1 : Fin 2) = t.val % 4 :=
  (by decide +kernel : ∀ t : Fin grid0.N, _)
/-- The down-projection window moves with (0, feature block). -/
theorem aidx : ∀ t : Fin cfg0.N, win0_2.index t (0 : Fin 2) = 0 ∧ win0_2.index t (1 : Fin 2) = t.val % 4 :=
  (by decide +kernel : ∀ t : Fin grid0.N, _)
/-- The up-projection window moves with (column block, 0). -/
theorem lbidx : ∀ t : Fin cfg0.N, win0_3.index t (0 : Fin 2) = t.val / 4 % 4 ∧ win0_3.index t (1 : Fin 2) = 0 :=
  (by decide +kernel : ∀ t : Fin grid0.N, _)
/-- The bias window moves with (0, column block). -/
theorem biasidx : ∀ t : Fin cfg0.N, win0_4.index t (0 : Fin 2) = 0 ∧ win0_4.index t (1 : Fin 2) = t.val / 4 % 4 :=
  (by decide +kernel : ∀ t : Fin grid0.N, _)

/-! ## A block read at an index: the array at (block index × block size + the coordinate inside the block) -/

theorem xblk_apply (c : Dev nD) (t : Fin cfg0.N) (p e : Fin 1024) :
    xblk m c t (ix2 p e) = X2 m c (ix2 (rowOf t.val p) (featOf t.val e)) := by
  obtain ⟨h0, h1⟩ := xidx t
  show V m c main_v0 (((cfg0.win 0).blk t).view.emb (ix2 p e)) = V m c main_v0 (ix2 (rowOf t.val p) (featOf t.val e))
  refine congrArg _ ?_
  funext a; apply Fin.ext
  match a with
  | ⟨0, _⟩ => show win0_0.index t (0 : Fin 2) * 1024 + 1 * p.val = 1024 * (t.val / 16 % 16) + p.val; omega
  | ⟨1, _⟩ => show win0_0.index t (1 : Fin 2) * 1024 + 1 * e.val = 1024 * (t.val % 4) + e.val; omega
theorem wblk_apply (c : Dev nD) (t : Fin cfg0.N) (q e : Fin 1024) :
    wblk m c t (ix2 q e) = Wm m c (ix2 (colOf t.val q) (featOf t.val e)) := by
  obtain ⟨h0, h1⟩ := widx t
  show V m c main_arg1 (((cfg0.win 1).blk t).view.emb (ix2 q e)) = V m c main_arg1 (ix2 (colOf t.val q) (featOf t.val e))
  refine congrArg _ ?_
  funext a; apply Fin.ext
  match a with
  | ⟨0, _⟩ => show win0_1.index t (0 : Fin 2) * 1024 + 1 * q.val = 1024 * (t.val / 4 % 4) + q.val; omega
  | ⟨1, _⟩ => show win0_1.index t (1 : Fin 2) * 1024 + 1 * e.val = 1024 * (t.val % 4) + e.val; omega
theorem ablk_apply (c : Dev nD) (t : Fin cfg0.N) (r : Fin 16) (e : Fin 1024) :
    ablk m c t (ix2 r e) = Am m c (ix2 r (featOf t.val e)) := by
  obtain ⟨h0, h1⟩ := aidx t
  show V m c main_arg3 (((cfg0.win 2).blk t).view.emb (ix2 r e)) = V m c main_arg3 (ix2 r (featOf t.val e))
  refine congrArg _ ?_
  funext a; apply Fin.ext
  match a with
  | ⟨0, _⟩ => show win0_2.index t (0 : Fin 2) * 16 + 1 * r.val = r.val; omega
  | ⟨1, _⟩ => show win0_2.index t (1 : Fin 2) * 1024 + 1 * e.val = 1024 * (t.val % 4) + e.val; omega
theorem lbblk_apply (c : Dev nD) (t : Fin cfg0.N) (q : Fin 1024) (r : Fin 16) :
    lbblk m c t (ix2 q r) = Bm m c (ix2 (colOf t.val q) r) := by
  obtain ⟨h0, h1⟩ := lbidx t
  show V m c main_arg4 (((cfg0.win 3).blk t).view.emb (ix2 q r)) = V m c main_arg4 (ix2 (colOf t.val q) r)
  refine congrArg _ ?_
  funext a; apply Fin.ext
  match a with
  | ⟨0, _⟩ => show win0_3.index t (0 : Fin 2) * 1024 + 1 * q.val = 1024 * (t.val / 4 % 4) + q.val; omega
  | ⟨1, _⟩ => show win0_3.index t (1 : Fin 2) * 16 + 1 * r.val = r.val; omega
theorem biasblk_apply (c : Dev nD) (t : Fin cfg0.N) (q : Fin 1024) :
    biasblk m c t (ix2 (0 : Fin 1) q) = b2 m c (ix2 (0 : Fin 1) (colOf t.val q)) := by
  obtain ⟨h0, h1⟩ := biasidx t
  show V m c main_v1 (((cfg0.win 4).blk t).view.emb (ix2 (0 : Fin 1) q)) = V m c main_v1 (ix2 (0 : Fin 1) (colOf t.val q))
  refine congrArg _ ?_
  funext a; apply Fin.ext
  match a with
  | ⟨0, _⟩ => show win0_4.index t (0 : Fin 2) * 1 + 1 * (0 : Fin 1).val = (0 : Fin 1).val; omega
  | ⟨1, _⟩ => show win0_4.index t (1 : Fin 2) * 1024 + 1 * q.val = 1024 * (t.val / 4 % 4) + q.val; omega

/-! ## The two arrays the host lines make before the tiled call

Each is a reshape of an argument: the same elements in the same row-major order. -/

/-- The flattened activation at (row of (b, s), d) is the activation at (b, s, d). -/
theorem X2_apply (c : Dev nD) (b : Fin 4) (s d : Fin 4096) :
    X2 m c (ix2 (flatRow b s) d) = (m ((c : Thread nD τ).loc main_arg0) : Vec Ideal S4x4096x4096 .f32) (ix3 b s d) := by
  have e : (V m c main_v0 : S16384x4096.Idx → EReal)
      = shapeCast S16384x4096 (m ((c : Thread nD τ).loc main_arg0)) shapeCasts_S4x4096x4096_S16384x4096 := by
    show StableHlo.after hostOps0 (fun b => m (c, b)) (Proc.devRef .tc main_v0) = _
    after_results
    rfl
  show (V m c main_v0 : S16384x4096.Idx → EReal) (ix2 (flatRow b s) d) = _
  rw [e]
  refine shapeCast_apply _ _ _ (ix3 b s d) ?_
  rw [Shape.rowMajor_val_three, Shape.rowMajor_val_two]
  show (b.val * 4096 + s.val) * 4096 + d.val = (4096 * b.val + s.val) * 4096 + d.val
  omega
/-- The one-row bias matrix at (0, o) is the bias at o. -/
theorem b2_apply (c : Dev nD) (o : Fin 4096) :
    b2 m c (ix2 (0 : Fin 1) o) = (m ((c : Thread nD τ).loc main_arg2) : Vec Ideal S4096 .f32) (ix1 o) := by
  have e : (V m c main_v1 : S1x4096.Idx → EReal)
      = shapeCast S1x4096 (m ((c : Thread nD τ).loc main_arg2)) shapeCasts_S4096_S1x4096 := by
    show StableHlo.after hostOps0 (fun b => m (c, b)) (Proc.devRef .tc main_v1) = _
    after_results
    rfl
  show (V m c main_v1 : S1x4096.Idx → EReal) (ix2 (0 : Fin 1) o) = _
  rw [e]
  refine shapeCast_apply _ _ _ (ix1 o) ?_
  rw [Shape.rowMajor_val_one, Shape.rowMajor_val_two]
  show o.val = (0 : Fin 1).val * 4096 + o.val
  simp

end Cert.KernelIdeal.Blocks

end
-- ==== Proof.Alg.lean ====
/-
  Algebra of the blocked feature sum and of the flattening of (batch, position) to rows, over the
  extended reals. Only commutativity, associativity and re-indexing of finite sums are used: the
  extended reals have neither cancellation nor distributivity at the infinities.
-/
import proofs.«134850_j13881334300847_1_alg».proof.Proof.Spec
import Mathlib.Algebra.BigOperators.Fin
import Mathlib.Algebra.BigOperators.Group.Finset.Basic
import Mathlib.Algebra.BigOperators.Group.Finset.Sigma

noncomputable section

namespace Cert.Lora

open Idealize.ShloMosaic Idealize.ShloMosaic.ValueIdx

/-! ## The running sum over feature blocks -/

/-- The running sum written out over the four blocks. -/
theorem pre_eq (g : Fin 4096 → EReal) (k : ℕ) :
    pre g k = (if 0 < k then blk g 0 else 0) + (if 1 < k then blk g 1 else 0)
      + (if 2 < k then blk g 2 else 0) + (if 3 < k then blk g 3 else 0) := by
  unfold pre
  rw [Fin.sum_univ_four]
  rfl

/-- Before the first block nothing has been summed. -/
theorem pre_zero (g : Fin 4096 → EReal) : pre g 0 = 0 := by
  unfold pre
  exact Finset.sum_eq_zero fun a _ => if_neg (Nat.not_lt_zero _)

/-- One more block adds that block's part. -/
theorem pre_succ (g : Fin 4096 → EReal) (k : ℕ) (hk : k < 4) : pre g (k + 1) = pre g k + blk g k := by
  rw [pre_eq, pre_eq]
  interval_cases k <;> simp

/-- A feature is a block together with an offset inside the block: d = 1024 · a + e. -/
def featEquiv : Fin 4 × Fin 1024 ≃ Fin 4096 where
  toFun p := ⟨1024 * p.1.val + p.2.val, by have := p.1.isLt; have := p.2.isLt; omega⟩
  invFun d := (⟨d.val / 1024, by have := d.isLt; omega⟩, ⟨d.val % 1024, by omega⟩)
  left_inv p := by
    rcases p with ⟨a, e⟩
    have := a.isLt
    have := e.isLt
    refine Prod.ext (Fin.ext ?_) (Fin.ext ?_)
    · show (1024 * a.val + e.val) / 1024 = a.val
      omega
    · show (1024 * a.val + e.val) % 1024 = e.val
      omega
  right_inv d := by
    apply Fin.ext
    show 1024 * (d.val / 1024) + d.val % 1024 = d.val
    omega

/-- That pairing is the spec's feature of a block. -/
theorem featEquiv_apply (a : Fin 4) (e : Fin 1024) : featEquiv (a, e) = featOf a.val e := by
  apply Fin.ext
  show 1024 * a.val + e.val = 1024 * (a.val % 4) + e.val
  have := a.isLt
  omega

/-- The sum over all features is the sum of the four blocks' parts. -/
theorem sum_blocks (g : Fin 4096 → EReal) : ∑ d : Fin 4096, g d = ∑ a : Fin 4, blk g a.val := by
  rw [← Equiv.sum_comp featEquiv g, Fintype.sum_prod_type]
  refine Finset.sum_congr rfl fun a _ => ?_
  unfold blk
  exact Finset.sum_congr rfl fun e _ => congrArg g (featEquiv_apply a e)

/-- After the fourth block the running sum is the whole sum. -/
theorem pre_four (g : Fin 4096 → EReal) : pre g 4 = ∑ d : Fin 4096, g d := by
  rw [sum_blocks]
  unfold pre
  exact Finset.sum_congr rfl fun a _ => if_pos a.isLt

/-! ## Rows against (batch, position) -/

/-- On a flattened activation and a bias carried as a one-row array, the row-wise function at the row of
    (b, s) is the layer at (b, s): the sums agree term by term, and the bias moves past the low-rank term
    by commutativity alone. -/
theorem GK_flat (x : SX3.Idx → EReal) (W : SW.Idx → EReal) (bias : SB1.Idx → EReal) (A : SA.Idx → EReal) (B : SLB.Idx → EReal)
    (X : SX2.Idx → EReal) (b2 : SB2.Idx → EReal)
    (hX : ∀ (b : Fin 4) (s d : Fin 4096), X (ix2 (flatRow b s) d) = x (ix3 b s d))
    (hb : ∀ o : Fin 4096, b2 (ix2 (0 : Fin 1) o) = bias (ix1 o))
    (b : Fin 4) (s o : Fin 4096) :
    GK X W b2 A B (ix2 (flatRow b s) o) = G x W bias A B (ix3 b s o) := by
  show (baseK X W (flatRow b s) o + loraK X A B (flatRow b s) o * two) + b2 (ix2 (0 : Fin 1) o)
      = (base3 x W b s o + bias (ix1 o)) + lora3 x A B b s o * two
  have h1 : baseK X W (flatRow b s) o = base3 x W b s o := by
    unfold baseK base3
    exact Finset.sum_congr rfl fun d _ => congrArg (· * W (ix2 o d)) (hX b s d)
  have h2 : loraK X A B (flatRow b s) o = lora3 x A B b s o := by
    unfold loraK lora3
    refine Finset.sum_congr rfl fun q _ => congrArg (· * B (ix2 o q)) ?_
    unfold xaK xa3
    exact Finset.sum_congr rfl fun d _ => congrArg (· * A (ix2 q d)) (hX b s d)
  rw [h1, h2, hb]
  exact add_right_comm _ _ _

end Cert.Lora

end
-- ==== Proof.Invariant.lean ====
/-
  What the two accumulators hold after every grid point, and what the output block holds where it is
  written back.

  The grid runs over (row block, column block, feature block), the feature block fastest. Within one (row
  block, column block) the main accumulator's element (p, q) after feature block k is the sum of
  x[row p, d] · W[col q, d] over the features d of blocks 0 … k, and the low-rank accumulator's element (p, r)
  the same sum against A[r, d]: zeroed at k = 0, one block's products added per point (induction on the
  point). At k = 3 both are whole sums, and the output block is the row-wise function `GK` of Spec.
-/
import proofs.«134850_j13881334300847_1_alg».proof.Proof.Pieces
import proofs.«134850_j13881334300847_1_alg».proof.Proof.Payload
import proofs.«134850_j13881334300847_1_alg».proof.Proof.Blocks
import proofs.«134850_j13881334300847_1_alg».proof.Proof.Alg

noncomputable section

namespace Cert.KernelIdeal.Invariant

open Cert.KernelIdeal Cert.KernelIdeal.Gen Cert.Lora Cert.KernelIdeal.Blocks
open Idealize.ShloMosaic Idealize.ShloMosaic.TcCoe Idealize.ShloMosaic.ValueIdx Idealize.SL.Sem

/-! ## Arithmetic of the point number -/

theorem blk_mod (g : Fin 4096 → EReal) (t : ℕ) : blk g (t % 4) = blk g t := by
  unfold blk
  exact Finset.sum_congr rfl fun e _ => congrArg g (Fin.ext (by show 1024 * (t % 4 % 4) + e.val = 1024 * (t % 4) + e.val; omega))

/-- At the first feature block the running sum is that block's part. -/
theorem pre_first (g : Fin 4096 → EReal) (t : ℕ) (h0 : t % 4 = 0) : 0 + blk g t = pre g (t % 4 + 1) := by
  rw [pre_succ g (t % 4) (by omega), h0, pre_zero, ← h0, blk_mod]

/-- At a later one it is the running sum the point before left, plus this block's part. -/
theorem pre_next (g : Fin 4096 → EReal) (t : ℕ) (h0 : ¬t % 4 = 0) :
    pre g ((t - 1) % 4 + 1) + blk g t = pre g (t % 4 + 1) := by
  rw [pre_succ g (t % 4) (by omega), blk_mod, show (t - 1) % 4 + 1 = t % 4 from by omega]

/-- Within one (row block, column block) the point before has the same row block and column block. -/
theorem rowOf_pred (t : ℕ) (h0 : ¬t % 4 = 0) (p : Fin 1024) : rowOf (t - 1) p = rowOf t p :=
  Fin.ext (by show 1024 * ((t - 1) / 16 % 16) + p.val = 1024 * (t / 16 % 16) + p.val; omega)
theorem colOf_pred (t : ℕ) (h0 : ¬t % 4 = 0) (q : Fin 1024) : colOf (t - 1) q = colOf t q :=
  Fin.ext (by show 1024 * ((t - 1) / 4 % 4) + q.val = 1024 * (t / 4 % 4) + q.val; omega)

variable (m : (ℓ : Loc nD τ sig) → Buf (Elt Ideal) ℓ)

/-! ## The products each accumulator element sums -/

/-- x[row p of t's row block, d] · W[column q of t's column block, d]. -/
def gW (c : Dev nD) (t : ℕ) (p q : Fin 1024) : Fin 4096 → EReal :=
  fun d => X2 m c (ix2 (rowOf t p) d) * Wm m c (ix2 (colOf t q) d)
/-- x[row p of t's row block, d] · A[r, d]. -/
def gA (c : Dev nD) (t : ℕ) (p : Fin 1024) (r : Fin 16) : Fin 4096 → EReal :=
  fun d => X2 m c (ix2 (rowOf t p) d) * Am m c (ix2 r d)

theorem gW_pred (c : Dev nD) (t : ℕ) (h0 : ¬t % 4 = 0) (p q : Fin 1024) : gW m c (t - 1) p q = gW m c t p q := by
  unfold gW; rw [rowOf_pred t h0, colOf_pred t h0]
theorem gA_pred (c : Dev nD) (t : ℕ) (h0 : ¬t % 4 = 0) (p : Fin 1024) (r : Fin 16) : gA m c (t - 1) p r = gA m c t p r := by
  unfold gA; rw [rowOf_pred t h0]

/-- The products of point t's blocks are feature block t's part of those sums. -/
theorem blockW (c : Dev nD) (t : Fin cfg0.N) (p q : Fin 1024) :
    ∑ e : Fin 1024, xblk m c t (ix2 p e) * wblk m c t (ix2 q e) = blk (gW m c t.val p q) t.val := by
  unfold blk gW
  exact Finset.sum_congr rfl fun e _ => by rw [xblk_apply, wblk_apply]
theorem blockA (c : Dev nD) (t : Fin cfg0.N) (p : Fin 1024) (r : Fin 16) :
    ∑ e : Fin 1024, xblk m c t (ix2 p e) * ablk m c t (ix2 r e) = blk (gA m c t.val p r) t.val := by
  unfold blk gA
  exact Finset.sum_congr rfl fun e _ => by rw [xblk_apply, ablk_apply]

/-! ## The invariant -/

/-- After point n: both accumulators hold the running sums over feature blocks 0 … n % 4. -/
def Inv (c : Dev nD) (n : ℕ) (h : n < cfg0.N) : Prop :=
  (∀ p q : Fin 1024, (outsAt0 m c n h).2.1 (ix2 p q) = pre (gW m c n p q) (n % 4 + 1))
  ∧ (∀ (p : Fin 1024) (r : Fin 16), (outsAt0 m c n h).2.2 (ix2 p r) = pre (gA m c n p r) (n % 4 + 1))

/-- What the point before left. -/
abbrev prev (c : Dev nD) (t : Fin cfg0.N) : Vec Ideal S1024x1024 .f32 × Vec Ideal S1024x1024 .f32 × Vec Ideal S1024x16 .f32 :=
  outsAt0 m c (t.val - 1) (Nat.lt_of_le_of_lt (Nat.sub_le _ _) t.isLt)

/-- One more block's products on top of what the point before left. -/
theorem acc_step (c : Dev nD) (t : Fin cfg0.N) (h0 : ¬t.val % 4 = 0)
    (ih : Inv m c (t.val - 1) (Nat.lt_of_le_of_lt (Nat.sub_le _ _) t.isLt)) (p q : Fin 1024) :
    k0_pay4 (xblk m c t) (wblk m c t) (prev m c t).2.1 (ix2 p q) = pre (gW m c t.val p q) (t.val % 4 + 1) := by
  refine (Payload.pay4_apply (xblk m c t) (wblk m c t) (prev m c t).2.1 p q).trans ?_
  rw [blockW, ih.1 p q, gW_pred m c t.val h0]
  exact pre_next _ _ h0

theorem xa_step (c : Dev nD) (t : Fin cfg0.N) (h0 : ¬t.val % 4 = 0)
    (ih : Inv m c (t.val - 1) (Nat.lt_of_le_of_lt (Nat.sub_le _ _) t.isLt)) (p : Fin 1024) (r : Fin 16) :
    k0_pay5 (xblk m c t) (ablk m c t) (prev m c t).2.2 (ix2 p r) = pre (gA m c t.val p r) (t.val % 4 + 1) := by
  refine (Payload.pay5_apply (xblk m c t) (ablk m c t) (prev m c t).2.2 p r).trans ?_
  rw [blockA, ih.2 p r, gA_pred m c t.val h0]
  exact pre_next _ _ h0

/-- At a first feature block the accumulators are zeroed and get the block's products. -/
theorem inv_first (c : Dev nD) (t : Fin cfg0.N) (h0 : t.val % 4 = 0) : Inv m c t.val t.isLt := by
  have h1 : ¬t.val % 4 = 3 := by omega
  unfold Inv
  rw [outsAt0_A m c t h0 h1]
  dsimp only
  constructor
  · intro p q
    refine (congrFun (Pieces.accA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))) (ix2 p q)).trans ?_
    refine (Payload.pay4_apply (xblk m c t) (wblk m c t) (k0_pay1 (F := Ideal)) p q).trans ?_
    rw [Payload.zero1_apply, blockW]
    exact pre_first _ _ h0
  · intro p r
    refine (congrFun (Pieces.xaA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))) (ix2 p r)).trans ?_
    refine (Payload.pay5_apply (xblk m c t) (ablk m c t) (k0_pay2 (F := Ideal)) p r).trans ?_
    rw [Payload.zero2_apply, blockA]
    exact pre_first _ _ h0

/-- At a later one they get the block's products added. -/
theorem inv_next (c : Dev nD) (t : Fin cfg0.N) (h0 : ¬t.val % 4 = 0)
    (ih : Inv m c (t.val - 1) (Nat.lt_of_le_of_lt (Nat.sub_le _ _) t.isLt)) : Inv m c t.val t.isLt := by
  unfold Inv
  by_cases h1 : t.val % 4 = 3
  · rw [outsAt0_C m c t h0 h1]
    dsimp only
    constructor
    · intro p q
      exact (congrFun (Pieces.accC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (prev m c t).2.1 (prev m c t).2.2 (fun h => h0 ((hcond0_0 t).mp h)) ((hcond0_1 t).mpr h1)) (ix2 p q)).trans (acc_step m c t h0 ih p q)
    · intro p r
      exact (congrFun (Pieces.xaC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (prev m c t).2.1 (prev m c t).2.2 (fun h => h0 ((hcond0_0 t).mp h)) ((hcond0_1 t).mpr h1)) (ix2 p r)).trans (xa_step m c t h0 ih p r)
  · rw [outsAt0_B m c t h0 h1]
    dsimp only
    constructor
    · intro p q
      exact (congrFun (Pieces.accB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (prev m c t).2.1 (prev m c t).2.2 (fun h => h0 ((hcond0_0 t).mp h)) (fun h => h1 ((hcond0_1 t).mp h))) (ix2 p q)).trans (acc_step m c t h0 ih p q)
    · intro p r
      exact (congrFun (Pieces.xaB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (prev m c t).2.1 (prev m c t).2.2 (fun h => h0 ((hcond0_0 t).mp h)) (fun h => h1 ((hcond0_1 t).mp h))) (ix2 p r)).trans (xa_step m c t h0 ih p r)

/-- The invariant holds after every point: induction on the point. -/
theorem inv (c : Dev nD) : ∀ (n : ℕ) (h : n < cfg0.N), Inv m c n h
  | 0, h => inv_first m c ⟨0, h⟩ rfl
  | n + 1, h => by
    by_cases h0 : (n + 1) % 4 = 0
    · exact inv_first m c ⟨n + 1, h⟩ h0
    · exact inv_next m c ⟨n + 1, h⟩ h0 (inv c n (Nat.lt_of_succ_lt h))

/-! ## The output block where it is written back -/

/-- At a last feature block the output block's element (p, q) is `GK` at (row p of the row block,
    column q of the column block): the accumulators are whole sums there. -/
theorem out_at (c : Dev nD) (t : Fin cfg0.N) (h1 : t.val % 4 = 3) (p q : Fin 1024) :
    (outsAt0 m c t.val t.isLt).1 (ix2 p q)
      = GK (X2 m c) (Wm m c) (b2 m c) (Am m c) (Bm m c) (ix2 (rowOf t.val p) (colOf t.val q)) := by
  have h0 : ¬t.val % 4 = 0 := by omega
  have ih := inv m c (t.val - 1) (Nat.lt_of_le_of_lt (Nat.sub_le _ _) t.isLt)
  rw [outsAt0_C m c t h0 h1]
  dsimp only
  refine (congrFun (Pieces.outC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (prev m c t).2.1 (prev m c t).2.2 (fun h => h0 ((hcond0_0 t).mp h)) ((hcond0_1 t).mpr h1)) (ix2 p q)).trans ?_
  refine (Payload.pay6_apply (lbblk m c t) (k0_pay5 (xblk m c t) (ablk m c t) (prev m c t).2.2)
    (k0_pay4 (xblk m c t) (wblk m c t) (prev m c t).2.1) (biasblk m c t) p q).trans ?_
  rw [acc_step m c t h0 ih p q, biasblk_apply,
    Finset.sum_congr rfl (fun r _ => by rw [xa_step m c t h0 ih p r, lbblk_apply] :
      ∀ r ∈ (Finset.univ : Finset (Fin 16)), k0_pay5 (xblk m c t) (ablk m c t) (prev m c t).2.2 (ix2 p r) * lbblk m c t (ix2 q r)
        = pre (gA m c t.val p r) (t.val % 4 + 1) * Bm m c (ix2 (colOf t.val q) r)),
    show t.val % 4 + 1 = 4 from by omega, pre_four]
  refine congrArg₂ (· + ·) (congrArg (_ + ·) (congrArg (· * two) (Finset.sum_congr rfl fun r _ => ?_))) rfl
  rw [pre_four]
  rfl

end Cert.KernelIdeal.Invariant

end
-- ==== Proof.OutBlock.lean ====
/-
  The output window: where point `t`'s block of the result matrix sits, and that the blocks written back
  (one per row block and column block, at the last feature block) tile the whole [16384, 4096] matrix.
-/
import proofs.«134850_j13881334300847_1_alg».proof.Proof.Gen.KernelIdeal.Frame
import proofs.«134850_j13881334300847_1_alg».proof.Proof.Spec
import Idealize.ShloMosaic.Lib.Pipeline.Value

noncomputable section

namespace Cert.KernelIdeal.OutBlock

open Cert.KernelIdeal Cert.KernelIdeal.Gen Cert.Lora
open Idealize.ShloMosaic Idealize.ShloMosaic.TcCoe Idealize.ShloMosaic.ValueIdx Idealize.SL.Sem

/-- The printed index map of the output window, decided once over the grid: point `t`'s block is row block
    `t / 16 % 16`, column block `t / 4 % 4`. -/
theorem out_index : ∀ t : Fin cfg0.N, win0_5.index t (0 : Fin 2) = t.val / 16 % 16
    ∧ win0_5.index t (1 : Fin 2) = t.val / 4 % 4 :=
  (by decide +kernel : ∀ t : Fin grid0.N, _)

/-- Element (p, q) of point `t`'s output block is element (row p of t's row block, column q of t's column
    block) of the result matrix. -/
theorem oblk_emb (t : Fin cfg0.N) (p q : Fin 1024) :
    ((cfg0.win 5).blk t).view.emb (ix2 p q) = (ix2 (rowOf t.val p) (colOf t.val q) : S16384x4096.Idx) := by
  obtain ⟨e0, e1⟩ := out_index t
  funext a; apply Fin.ext
  match a with
  | ⟨0, _⟩ =>
    show win0_5.index t (0 : Fin 2) * 1024 + 1 * p.val = 1024 * (t.val / 16 % 16) + p.val
    omega
  | ⟨1, _⟩ =>
    show win0_5.index t (1 : Fin 2) * 1024 + 1 * q.val = 1024 * (t.val / 4 % 4) + q.val
    omega

/-- An index of the result matrix is in point `t`'s block iff each coordinate is in the block's range on its
    axis. -/
theorem mem_oblk (t : Fin cfg0.N) (i : S16384x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v2).slice (win0_5.rect t)).set ↔ _
  rw [View.set_slice_whole, Rect.mem_set_unit]
  exact Iff.rfl

/-- Every element of the result matrix lies in the block some point writes back. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 256 := N_0
  have hi0 : ((i : S16384x4096.Idx) 0).val < 16384 := (i 0).isLt
  have hi1 : ((i : S16384x4096.Idx) 1).val < 4096 := (i 1).isLt
  let t : Fin cfg0.N := ⟨16 * ((i 0).val / 1024) + 4 * ((i 1).val / 1024) + 3, by rw [hN]; omega⟩
  have htv : t.val = 16 * ((i 0).val / 1024) + 4 * ((i 1).val / 1024) + 3 := rfl
  obtain ⟨e0, e1⟩ := out_index t
  refine ⟨t, (flush0_5 t).mpr (by rw [htv]; omega), ?_⟩
  rw [mem_oblk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

end Cert.KernelIdeal.OutBlock

end
-- ==== Proof.Final.lean ====
/-
  The tiled program's run, read: the result matrix ends holding the row-wise function `GK` (each point that
  writes back leaves block (row block, column block) of it, and those blocks tile the matrix), and the host
  line after the call reshapes it to (batch, position, feature), which is the layer `G` of Spec.
-/
import proofs.«134850_j13881334300847_1_alg».proof.Proof.Invariant
import proofs.«134850_j13881334300847_1_alg».proof.Proof.OutBlock
import Idealize.ShloMosaic.Lib.StableHlo.Run

noncomputable section

namespace Cert.KernelIdeal.Final

open Cert.KernelIdeal Cert.KernelIdeal.Gen Cert.Lora Cert.KernelIdeal.Blocks Cert.KernelIdeal.Invariant
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result matrix: `GK` of the arrays as the tiled call finds them. -/
abbrev GKm (c : Dev nD) : Vec Ideal S16384x4096 .f32 := GK (X2 m c) (Wm m c) (b2 m c) (Am m c) (Bm m c)

/-- What a point that writes back writes is its block of the result matrix. -/
theorem flushed_eq (c : Dev nD) (t : Fin cfg0.N) (hf : (cfg0.win 5).flush t = true) :
    (dats m 0 c).flushed 5 t = ((cfg0.win 5).blk t).view.read (Elt Ideal) (GKm m c) := by
  have h1 : t.val % 4 = 3 := (flush0_5 t).mp hf
  show (cfg0.win 5).cut (grid0.coords t) ((dats m 0 c).after 5 t) = _
  rw [after0_5]
  funext j
  obtain ⟨p, q, rfl⟩ : ∃ (p q : Fin 1024), j = ix2 p q := ⟨j 0, j 1, eq_ix2 j⟩
  show _ = GKm m c (((cfg0.win 5).blk t).view.emb (ix2 p q))
  rw [OutBlock.oblk_emb]
  exact out_at m c t h1 p q

/-- So the result matrix ends holding `GK`. -/
theorem final (c : Dev nD) : (dats m 0 c).arrAt 5 cfg0.N = GKm m c :=
  (dats m 0 c).arrAt_eq_of_cover 5 (GKm m c) (flushed_eq m c) (OutBlock.cover5 c)

/-- The program's result: the reshape of the result matrix to (batch, position, feature). -/
theorem tail_eq (c : Dev nD) :
    Pipeline.afterTail₀ cfgs (dats m) 0 (V0 m) [hostOps1] c main_v3
      = shapeCast S4x4096x4096 (GKm m c) shapeCasts_S16384x4096_S4x4096x4096 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = GKm m c := (Pipeline.withArrays_arr spec0 launch0.win.arr_inj c _ _ 5).trans (final m c)
  rw [hw]
  rfl

/-- Read at (b, s, o), that reshape is the result matrix at (row of (b, s), o). -/
theorem reshape_apply (Y : Vec Ideal S16384x4096 .f32) (b : Fin 4) (s o : Fin 4096) :
    shapeCast S4x4096x4096 Y shapeCasts_S16384x4096_S4x4096x4096 (ix3 b s o) = Y (ix2 (flatRow b s) o) := by
  refine shapeCast_apply _ _ _ (ix2 (flatRow b s) o) ?_
  rw [Shape.rowMajor_val_three, Shape.rowMajor_val_two]
  show (4096 * b.val + s.val) * 4096 + o.val = (b.val * 4096 + s.val) * 4096 + o.val
  omega

/-- The program's result is the layer of the argument arrays. -/
theorem result_eq (c : Dev nD) :
    Pipeline.afterTail₀ cfgs (dats m) 0 (V0 m) [hostOps1] c main_v3
      = G (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_eq]
  funext i
  obtain ⟨b, s, o, rfl⟩ : ∃ (b : Fin 4) (s o : Fin 4096), i = ix3 b s o := ⟨i 0, i 1, i 2, eq_ix3 i⟩
  rw [reshape_apply]
  have hW : Wm m c = m ((c : Thread nD τ).loc main_arg1) := V_main_arg1 m c
  have hA : Am m c = m ((c : Thread nD τ).loc main_arg3) := V_main_arg3 m c
  have hB : Bm m c = m ((c : Thread nD τ).loc main_arg4) := V_main_arg4 m c
  show GK (X2 m c) (Wm m c) (b2 m c) (Am m c) (Bm m c) (ix2 (flatRow b s) o) = _
  rw [hW, hA, hB]
  exact GK_flat _ _ _ _ _ _ _ (fun b s d => X2_apply m c b s d) (fun o => b2_apply m c o) b s o

/-- The run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v3)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Final

end
-- ==== Proof.RefSide.lean ====
import proofs.«134850_j13881334300847_1_alg».proof.Proof.Gen.ReferenceIdeal.Read
import proofs.«134850_j13881334300847_1_alg».proof.Proof.Spec

/-
  The reference program's result, read one element at a time, is the layer `G`:
  (x·Wᵀ + bias) + ((x·Aᵀ)·Bᵀ) · 2.
-/

noncomputable section

namespace Cert.ReferenceIdeal.RefValue

open Cert.ReferenceIdeal Cert.ReferenceIdeal.Gen Cert.ReferenceIdeal.Read Idealize.ShloMosaic Idealize.ShloMosaic.ValueIdx

/-! ## The index functions of the reads, in coordinates -/

/-- The left operand of the base product is read at (batch, position, feature). -/
theorem lidx_v0 (i : S4x4096x4096.Idx) (k : Fin 4096) : lidx_main_v0 i k = ix3 (i 0) (i 1) k :=
  funext fun a => Fin.ext (by match a with | ⟨0, _⟩ => rfl | ⟨1, _⟩ => rfl | ⟨2, _⟩ => rfl)

/-- The weight is read at (output feature, feature). -/
theorem ridx_v0 (i : S4x4096x4096.Idx) (k : Fin 4096) : ridx_main_v0 i k = ix2 (i 2) k :=
  funext fun a => Fin.ext (by match a with | ⟨0, _⟩ => rfl | ⟨1, _⟩ => rfl)

/-- The bias, broadcast twice, is read at the output feature. -/
theorem idx_bias (i : S4x4096x4096.Idx) : idx_main_v1 (idx_main_v2 i) = ix1 (i 2) :=
  funext fun a => Fin.ext (by match a with | ⟨0, _⟩ => rfl)

/-- The activation under the low-rank product is read at (batch, position, feature). -/
theorem lidx_v4 (i : S4x4096x4096.Idx) (q : Fin 16) (k : Fin 4096) :
    lidx_main_v4 (lidx_main_v5 i q) k = ix3 (i 0) (i 1) k :=
  funext fun a => Fin.ext (by match a with | ⟨0, _⟩ => rfl | ⟨1, _⟩ => rfl | ⟨2, _⟩ => rfl)

/-- The down-projection is read at (rank index, feature). -/
theorem ridx_v4 (i : S4x4096x4096.Idx) (q : Fin 16) (k : Fin 4096) :
    ridx_main_v4 (lidx_main_v5 i q) k = ix2 q k :=
  funext fun a => Fin.ext (by match a with | ⟨0, _⟩ => rfl | ⟨1, _⟩ => rfl)

/-- The up-projection is read at (output feature, rank index). -/
theorem ridx_v5 (i : S4x4096x4096.Idx) (q : Fin 16) : ridx_main_v5 i q = ix2 (i 2) q :=
  funext fun a => Fin.ext (by match a with | ⟨0, _⟩ => rfl | ⟨1, _⟩ => rfl)

/-! ## The result is the layer -/

theorem ref_is_G (x0 : (⟨S4x4096x4096, .f32⟩ : BufTy).Contents (Elt Ideal)) (x1 : (⟨S4096x4096, .f32⟩ : BufTy).Contents (Elt Ideal)) (x2 : (⟨S4096, .f32⟩ : BufTy).Contents (Elt Ideal)) (x3 : (⟨S16x4096, .f32⟩ : BufTy).Contents (Elt Ideal)) (x4 : (⟨S4096x16, .f32⟩ : BufTy).Contents (Elt Ideal)) :
    Cert.ReferenceIdeal.Read.val_main_v8 (F := Ideal) x0 x1 x2 x3 x4 = Cert.Lora.G x0 x1 x2 x3 x4 := by
  funext i
  rw [val_main_v8_apply, val_main_v3_apply, val_main_v7_apply, val_main_v0_apply, val_main_v2_apply,
    val_main_v1_apply, val_main_v5_apply, val_main_v6_apply, val_main_cst_apply]
  have h4 : (∑ q : Fin 16, val_main_v4 (F := Ideal) x0 x3 (lidx_main_v5 i q) * x4 (ridx_main_v5 i q))
      = ∑ q : Fin 16, (∑ d : Fin 4096, x0 (ix3 (i 0) (i 1) d) * x3 (ix2 q d)) * x4 (ix2 (i 2) q) :=
    Finset.sum_congr rfl fun q _ => by
      rw [val_main_v4_apply, ridx_v5]
      refine congrArg (· * x4 (ix2 (i 2) q)) ?_
      exact Finset.sum_congr rfl fun d _ => by rw [lidx_v4, ridx_v4]; rfl
  have h0 : (∑ k : Fin 4096, x0 (lidx_main_v0 i k) * x1 (ridx_main_v0 i k))
      = ∑ d : Fin 4096, x0 (ix3 (i 0) (i 1) d) * x1 (ix2 (i 2) d) :=
    Finset.sum_congr rfl fun d _ => by rw [lidx_v0, ridx_v0]; rfl
  rw [h4, h0, idx_bias]
  rfl

end Cert.ReferenceIdeal.RefValue

end
-- ==== Proof.lean ====
/-
  The certificate of a LoRA linear layer computed tile by tile against the same layer written with three einsums.

  Both programs, read over the extended reals, compute

      y[b, s, o] = (∑_d x[b, s, d] · W[o, d] + bias[o]) + (∑_q (∑_d x[b, s, d] · A[q, d]) · B[o, q]) · 2

  (`Cert.Lora.G`, Proof/Spec.lean). The tiled program flattens (b, s) to 16384 rows, walks a 16 × 4 × 4 grid of
  (row block, column block, feature block) of 1024 each, and keeps two accumulators across the four feature
  blocks of a (row block, column block): x·Wᵀ and x·Aᵀ restricted to the feature blocks seen so far
  (Proof/Invariant.lean, by induction on the grid point over the body's three control cases read as values in
  Proof/Pieces.lean and Proof/Payload.lean, the blocks located in Proof/Blocks.lean). At the last feature block
  the sums are whole and the written-back block is (x·Wᵀ + (x·Aᵀ)·Bᵀ · 2) + bias on its rows and columns; the
  blocks tile the result matrix (Proof/OutBlock.lean, Proof/Final.lean) and the closing reshape gives it its
  (b, s, o) form. The einsum program's term is read operation by operation (Proof/RefSide.lean). The two differ
  only in how a sum over 4096 features is grouped (Proof/Alg.lean: four blocks of 1024) and in where the bias is
  added, so they agree by commutativity and associativity of addition alone: no finiteness of the inputs is
  used, and a change of float format is the identity over the extended reals. The idealization rewrote
  nothing, so the preservation claim is trivial; the frames are the generated frame runs.
-/
import proofs.«134850_j13881334300847_1_alg».proof.Defs
import proofs.«134850_j13881334300847_1_alg».proof.Proof.Gen.Kernel
import proofs.«134850_j13881334300847_1_alg».proof.Proof.Gen.Kernel.Frame
import proofs.«134850_j13881334300847_1_alg».proof.Proof.Gen.KernelIdeal
import proofs.«134850_j13881334300847_1_alg».proof.Proof.Gen.KernelIdeal.Frame
import proofs.«134850_j13881334300847_1_alg».proof.Proof.Gen.ReferenceIdeal
import proofs.«134850_j13881334300847_1_alg».proof.Proof.Gen.ReferenceIdeal.Run
import proofs.«134850_j13881334300847_1_alg».proof.Proof.Gen.Pre_finite_inputs
import proofs.«134850_j13881334300847_1_alg».proof.Proof.Final
import proofs.«134850_j13881334300847_1_alg».proof.Proof.RefSide
import Idealize.ShloMosaic.Adequacy
import Idealize.ShloMosaic.Init

noncomputable section

namespace Cert.Proof

open Idealize.ShloMosaic Idealize.ShloMosaic.TcCoe Idealize.SL.Sem

/-- The tiled program at the word level runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The einsum program runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer `G` of arguments that agree. -/
theorem algebraic : Cert.algebraic_KernelIdeal_ReferenceIdeal := by
  intro m ρ m' ρ' _ hagree
  refine ⟨fun c => Cert.Lora.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_is_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
